-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x2048x3 : Shape := ⟨3, ![4, 2048, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x8192x3 .f32) (main_arg1 : FVec F S4x2048x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Kernel.lean ====
abbrev S4x8192x3 : Shape := ⟨3, ![4, 8192, 3]⟩
abbrev S4x2048x3 : Shape := ⟨3, ![4, 2048, 3]⟩
abbrev S1x1 : Shape := ⟨2, ![1, 1]⟩
abbrev S4x128x3 : Shape := ⟨3, ![4, 128, 3]⟩
abbrev S4x2048 : Shape := ⟨2, ![4, 2048]⟩
abbrev S4x1x2048 : Shape := ⟨3, ![4, 1, 2048]⟩
abbrev S4x128 : Shape := ⟨2, ![4, 128]⟩
abbrev S4x128x1 : Shape := ⟨3, ![4, 128, 1]⟩
abbrev S4x128x2048 : Shape := ⟨3, ![4, 128, 2048]⟩
abbrev S4 : Shape := ⟨1, ![4]⟩
abbrev S4x1 : Shape := ⟨2, ![4, 1]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S4x128x3, .f32⟩
  | .local _ .vmem, ⟨1, _⟩ => ⟨S4x128x3, .f32⟩
  | .local _ .vmem, ⟨2, _⟩ => ⟨S4x2048x3, .f32⟩
  | .local _ .vmem, ⟨3, _⟩ => ⟨S1x1, .f32⟩
  | .local _ .vmem, ⟨4, _⟩ => ⟨S4x2048, .f32⟩
  | .local _ .vmem, ⟨5, _⟩ => ⟨S1x1, .f32⟩
  | .local _ .vmem, ⟨6, _⟩ => ⟨S4x1x2048, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v34 : BitVec 1 := Scalar.cmpi .eq arg0 c63_i32
  let v35 : BitVec 32 := Scalar.extui v34
  let c0_i32_24 : BitVec 32 := 0#32
  let v36 : BitVec 1 := Scalar.cmpi .ne v35 c0_i32_24
  v36

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x2048x3_S4x2048x3_0_0_0 : ∀ a, (![0, 0, 0] : Fin 3 → Nat) a + S4x2048x3.size a ≤ S4x2048x3.size a
  h_S4x2048x3 : 0 < S4x2048x3.numel
  reduces_S4x2048x3_S4x2048 : S4x2048x3.Reduces [2] S4x2048
  shapeCasts_S4x2048_S4x1x2048 : S4x2048.ShapeCasts S4x1x2048
  inb_S4x1x2048_S4x1x2048_0_0_0 : ∀ a, (![0, 0, 0] : Fin 3 → Nat) a + S4x1x2048.size a ≤ S4x1x2048.size a
  h_S4x1x2048 : 0 < S4x1x2048.numel
  shapeCasts_S4x1x2048_S4x1x2048 : S4x1x2048.ShapeCasts S4x1x2048
  inb_S4x128x3_S4x128x3_0_0_0 : ∀ a, (![0, 0, 0] : Fin 3 → Nat) a + S4x128x3.size a ≤ S4x128x3.size a
  h_S4x128x3 : 0 < S4x128x3.numel
  reduces_S4x128x3_S4x128 : S4x128x3.Reduces [2] S4x128
  shapeCasts_S4x128_S4x128x1 : S4x128.ShapeCasts S4x128x1
  broadcasts_S4x128x1_S4x128x2048 : S4x128x1.Broadcasts S4x128x2048
  broadcasts_S4x1x2048_S4x128x2048 : S4x1x2048.Broadcasts S4x128x2048
  reduces_S4x128x2048_S4x128 : S4x128x2048.Reduces [2] S4x128
  reduces_S4x128_S4 : S4x128.Reduces [1] S4
  shapeCasts_S4_S4x1 : S4.ShapeCasts S4x1
  reduces_S4x1_S1 : S4x1.Reduces [0] S1
  shapeCasts_S1_S1x1 : S1.ShapeCasts S1x1
  reduces_S4x128x2048_S4x2048 : S4x128x2048.Reduces [1] S4x2048
  reduces_S4x2048_S4 : S4x2048.Reduces [1] S4
  shapeCasts_S1x1_S_ : S1x1.ShapeCasts S_
  dot_S4x128x3_S4x2048x3_S4x128x2048_2_2_1_1_0_0_wf : DotDims.WF S4x128x3 S4x2048x3 S4x128x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S4x8192x3.size a
  hwx0_0 : ∀ i : grid0.Coords, EltTy.bits .f32 = 32 ∨ (Rect.block (s := S4x8192x3) S4x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048x3.size a ≤ S4x2048x3.size a
  hwx0_1 : ∀ i : grid0.Coords, EltTy.bits .f32 = 32 ∨ (Rect.block (s := S4x2048x3) S4x2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4x128x3_S4x2048x3_S4x128x2048_2_2_1_1_0_0 : DotDims S4x128x3 S4x2048x3 S4x128x2048 where
  lhsContracting := [2]
  rhsContracting := [2]
  lhsNonContracting := [1]
  rhsNonContracting := [1]
  lhsBatch := [0]
  rhsBatch := [0]
  wf := dot_S4x128x3_S4x2048x3_S4x128x2048_2_2_1_1_0_0_wf

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x2048x3 : Shape := ⟨3, ![4, 2048, 3]⟩
abbrev S_ : Shape := ⟨0, ![]⟩
abbrev S4x8192 : Shape := ⟨2, ![4, 8192]⟩
abbrev S4x2048 : Shape := ⟨2, ![4, 2048]⟩
abbrev S4x8192x2048 : Shape := ⟨3, ![4, 8192, 2048]⟩
abbrev S4x8192x1 : Shape := ⟨3, ![4, 8192, 1]⟩
abbrev S4x1x2048 : Shape := ⟨3, ![4, 1, 2048]⟩
abbrev S4x2048x8192 : Shape := ⟨3, ![4, 2048, 8192]⟩
abbrev S4x2048x1 : Shape := ⟨3, ![4, 2048, 1]⟩
abbrev S4x1x8192 : Shape := ⟨3, ![4, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x2048x3, .f32⟩
  | .hbm, ⟨6, _⟩ => ⟨S_, .f32⟩
  | .hbm, ⟨7, _⟩ => ⟨S4x2048, .f32⟩
  | .hbm, ⟨8, _⟩ => ⟨S4x8192x2048, .f32⟩
  | .hbm, ⟨9, _⟩ => ⟨S4x8192x1, .f32⟩
  | .hbm, ⟨10, _⟩ => ⟨S4x1x2048, .f32⟩
  | .hbm, ⟨11, _⟩ => ⟨S4x8192x2048, .f32⟩
  | .hbm, ⟨12, _⟩ => ⟨S4x8192x2048, .f32⟩
  | .hbm, ⟨13, _⟩ => ⟨S4x8192x2048, .f32⟩
  | .hbm, ⟨14, _⟩ => ⟨S_, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S_, .f32⟩
  | .hbm, ⟨25, _⟩ => ⟨S4x2048x3, .f32⟩
  | .hbm, ⟨26, _⟩ => ⟨S_, .f32⟩
  | .hbm, ⟨27, _⟩ => ⟨S4x2048, .f32⟩
  | .hbm, ⟨28, _⟩ => ⟨S4x8192x3, .f32⟩
  | .hbm, ⟨29, _⟩ => ⟨S_, .f32⟩
  | .hbm, ⟨30, _⟩ => ⟨S4x8192, .f32⟩
  | .hbm, ⟨31, _⟩ => ⟨S4x2048x8192, .f32⟩
  | .hbm, ⟨32, _⟩ => ⟨S4x2048x1, .f32⟩
  | .hbm, ⟨33, _⟩ => ⟨S4x1x8192, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S_, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S_, .f32⟩
  | .hbm, ⟨42, _⟩ => ⟨S4x2048x8192, .f32⟩
  | .hbm, ⟨43, _⟩ => ⟨S4x2048x8192, .f32⟩
  | .hbm, ⟨44, _⟩ => ⟨S_, .f32⟩
  | .hbm, ⟨45, _⟩ => ⟨S4x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  reducesTo_S4x2048x3_S4x2048_d2 : S4x2048x3.ReducesTo [2] S4x2048
  bcast_S4x8192_S4x8192x1_0_1 : S4x8192.BroadcastsInDim S4x8192x1 (![0, 1] : Fin 2 → Fin S4x8192x1.rank)
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  reducesTo_S4x8192x2048_S4x8192_d2 : S4x8192x2048.ReducesTo [2] S4x8192
  reducesTo_S4x8192_S_d0_1 : S4x8192.ReducesTo [0, 1] S_
  bcast_S4x2048_S4x2048x1_0_1 : S4x2048.BroadcastsInDim S4x2048x1 (![0, 1] : Fin 2 → Fin S4x2048x1.rank)
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  reducesTo_S4x2048x8192_S4x2048_d2 : S4x2048x8192.ReducesTo [2] S4x2048
  reducesTo_S4x2048_S_d0_1 : S4x2048.ReducesTo [0, 1] S_
  dot_S4x8192x3_S4x2048x3_S4x8192x2048_2_2_1_1_0_0_wf : DotDims.WF S4x8192x3 S4x2048x3 S4x8192x2048 [2] [2] [1] [1] [0] [0]
  dot_S4x2048x3_S4x8192x3_S4x2048x8192_2_2_1_1_0_0_wf : DotDims.WF S4x2048x3 S4x8192x3 S4x2048x8192 [2] [2] [1] [1] [0] [0]

variable [Facts₀]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf

class Facts : Prop extends Facts₀ where

variable [Facts]
-- ==== Proof.KernelFound.lean ====
/-
  What one grid point leaves in the kernel's three carried buffers and, at the last point, in its result block, as
  pure functions of the point's two input blocks and of what the point before left.

  The first point (case A) resets before it accumulates: the row-norm buffer is set from the second cloud's block, the sum
  cell starts from the zero word and the minimum buffer from the `+∞` word, and each accumulates this tile's share over
  its own reset value. A middle point (case B) accumulates over what the point before left and keeps the row norms. The last
  point (case C) does the same and then writes the result block: the sum cell plus the minimum buffer summed over
  everything, both read after this point's own update.
-/
import proofs.«177309_j19061064860389_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- This tile's update of the minimum buffer `mins`, given the row norms `sq`. -/
abbrev stepMin (x0 : Vec F S4x128x3 .f32) (x1 : Vec F S4x2048x3 .f32) (sq : Vec F S4x1x2048 .f32) (mins : Vec F S4x2048 .f32) :
    Vec F S4x2048 .f32 := k0_pay1 (k0_pay8 x0 x1 sq mins)

/-- This tile's update of the sum cell `acc`, given the row norms `sq`. -/
abbrev stepSum (x0 : Vec F S4x128x3 .f32) (x1 : Vec F S4x2048x3 .f32) (sq : Vec F S4x1x2048 .f32) (acc : Vec F S1x1 .f32) :
    Vec F S1x1 .f32 := k0_pay7 x0 x1 sq acc

/-! ## The first point -/

theorem first_rowNorms (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : cond0_0 i) (hc1 : ¬cond0_1 i) (x0 : Vec F S4x128x3 .f32) (x1 : Vec F S4x2048x3 .f32) :
    sout0_A_2 c i a1 h1 a2 h2 a3 h3 a4 h4 a5 h5 a6 h6 hc0 hc1 x0 x1 = k0_pay5 x1 := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_unit_zero hz3]
  simp only [View.readAt_eq_ld, h1.read_unread, h2.read_unread, View.ld_unit_zero (S := S4x128x3) hz3, View.ld_unit_zero (S := S4x2048x3) hz3, View.readCov_unit_zero (S := S4x1x2048) _ hz3, View.readCov_unit_zero (S := S4x2048) _ hz2, View.readCov_unit_zero (S := S1x1) _ hz2]

theorem first_sum (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : cond0_0 i) (hc1 : ¬cond0_1 i) (x0 : Vec F S4x128x3 .f32) (x1 : Vec F S4x2048x3 .f32) :
    sout0_A_1 c i a1 h1 a2 h2 a3 h3 a4 h4 a5 h5 a6 h6 hc0 hc1 x0 x1 = stepSum x0 x1 (k0_pay5 x1) k0_pay4 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz2]
  simp only [View.readAt_eq_ld, h1.read_unread, h2.read_unread, View.ld_unit_zero (S := S4x128x3) hz3, View.ld_unit_zero (S := S4x2048x3) hz3, View.readCov_unit_zero (S := S4x1x2048) _ hz3, View.readCov_unit_zero (S := S4x2048) _ hz2, View.readCov_unit_zero (S := S1x1) _ hz2]

theorem first_min (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : cond0_0 i) (hc1 : ¬cond0_1 i) (x0 : Vec F S4x128x3 .f32) (x1 : Vec F S4x2048x3 .f32) :
    sout0_A_0 c i a1 h1 a2 h2 a3 h3 a4 h4 a5 h5 a6 h6 hc0 hc1 x0 x1 = stepMin x0 x1 (k0_pay5 x1) k0_pay3 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S4x2048) hz2]
  simp only [View.readAt_eq_ld, h1.read_unread, h2.read_unread, View.ld_unit_zero (S := S4x128x3) hz3, View.ld_unit_zero (S := S4x2048x3) hz3, View.readCov_unit_zero (S := S4x1x2048) _ hz3, View.readCov_unit_zero (S := S4x2048) _ hz2, View.readCov_unit_zero (S := S1x1) _ hz2]

/-! ## A middle point -/

theorem middle_sum (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : ¬cond0_0 i) (hc1 : ¬cond0_1 i) (x0 : Vec F S4x128x3 .f32) (x1 : Vec F S4x2048x3 .f32) (xs0 : Vec F S4x2048 .f32) (xs1 : Vec F S1x1 .f32) (xs2 : Vec F S4x1x2048 .f32) :
    sout0_B_1 c i a1 h1 a2 h2 a3 h3 a4 h4 a5 h5 a6 h6 hc0 hc1 x0 x1 xs0 xs1 xs2 = stepSum x0 x1 xs2 xs1 := by
  unfold sout0_B_1
  rw [View.read_writes_eq_canon _ _ _ (scover0_B_1 c i a1 h1 a2 h2 a3 h3 a4 h4 a5 h5 a6 h6 hc0 hc1 x0 x1 xs0 xs1 xs2)]
  unfold kernelRun0_B
  dsimp only
  sl_unfold_words
  rw [View.canon_unit_zero hz2]
  simp only [View.readAt_eq_ld, h1.read_unread, h2.read_unread, h4.read_unread, h5.read_unread, h6.read_unread, View.ld_unit_zero (S := S4x128x3) hz3, View.ld_unit_zero (S := S4x2048x3) hz3, View.ld_unit_zero (S := S4x1x2048) hz3, View.ld_unit_zero (S := S4x2048) hz2, View.ld_unit_zero (S := S1x1) hz2]

theorem middle_min (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : ¬cond0_0 i) (hc1 : ¬cond0_1 i) (x0 : Vec F S4x128x3 .f32) (x1 : Vec F S4x2048x3 .f32) (xs0 : Vec F S4x2048 .f32) (xs1 : Vec F S1x1 .f32) (xs2 : Vec F S4x1x2048 .f32) :
    sout0_B_0 c i a1 h1 a2 h2 a3 h3 a4 h4 a5 h5 a6 h6 hc0 hc1 x0 x1 xs0 xs1 xs2 = stepMin x0 x1 xs2 xs0 := by
  unfold sout0_B_0
  rw [View.read_writes_eq_canon _ _ _ (scover0_B_0 c i a1 h1 a2 h2 a3 h3 a4 h4 a5 h5 a6 h6 hc0 hc1 x0 x1 xs0 xs1 xs2)]
  unfold kernelRun0_B
  dsimp only
  sl_unfold_words
  rw [View.canon_unit_zero hz2]
  simp only [View.readAt_eq_ld, h1.read_unread, h2.read_unread, h4.read_unread, h5.read_unread, h6.read_unread, View.ld_unit_zero (S := S4x128x3) hz3, View.ld_unit_zero (S := S4x2048x3) hz3, View.ld_unit_zero (S := S4x1x2048) hz3, View.ld_unit_zero (S := S4x2048) hz2, View.ld_unit_zero (S := S1x1) hz2]

/-! ## The last point -/

theorem last_sum (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : ¬cond0_0 i) (hc1 : cond0_1 i) (x0 : Vec F S4x128x3 .f32) (x1 : Vec F S4x2048x3 .f32) (xs0 : Vec F S4x2048 .f32) (xs1 : Vec F S1x1 .f32) (xs2 : Vec F S4x1x2048 .f32) :
    sout0_C_1 c i a1 h1 a2 h2 a3 h3 a4 h4 a5 h5 a6 h6 hc0 hc1 x0 x1 xs0 xs1 xs2 = stepSum x0 x1 xs2 xs1 := by
  unfold sout0_C_1
  rw [View.read_writes_eq_canon _ _ _ (scover0_C_1 c i a1 h1 a2 h2 a3 h3 a4 h4 a5 h5 a6 h6 hc0 hc1 x0 x1 xs0 xs1 xs2)]
  unfold kernelRun0_C
  dsimp only
  sl_unfold_words
  rw [View.canon_unit_zero hz2]
  simp only [View.readAt_eq_ld, h1.read_unread, h2.read_unread, h4.read_unread, h5.read_unread, h6.read_unread, View.ld_unit_zero (S := S4x128x3) hz3, View.ld_unit_zero (S := S4x2048x3) hz3, View.ld_unit_zero (S := S4x1x2048) hz3, View.ld_unit_zero (S := S4x2048) hz2, View.ld_unit_zero (S := S1x1) hz2, View.readCov_unit_zero (S := S4x2048) _ hz2, View.readCov_unit_zero (S := S1x1) _ hz2]

theorem last_min (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : ¬cond0_0 i) (hc1 : cond0_1 i) (x0 : Vec F S4x128x3 .f32) (x1 : Vec F S4x2048x3 .f32) (xs0 : Vec F S4x2048 .f32) (xs1 : Vec F S1x1 .f32) (xs2 : Vec F S4x1x2048 .f32) :
    sout0_C_0 c i a1 h1 a2 h2 a3 h3 a4 h4 a5 h5 a6 h6 hc0 hc1 x0 x1 xs0 xs1 xs2 = stepMin x0 x1 xs2 xs0 := by
  unfold sout0_C_0
  rw [View.read_writes_eq_canon _ _ _ (scover0_C_0 c i a1 h1 a2 h2 a3 h3 a4 h4 a5 h5 a6 h6 hc0 hc1 x0 x1 xs0 xs1 xs2)]
  unfold kernelRun0_C
  dsimp only
  sl_unfold_words
  rw [View.canon_unit_zero hz2]
  simp only [View.readAt_eq_ld, h1.read_unread, h2.read_unread, h4.read_unread, h5.read_unread, h6.read_unread, View.ld_unit_zero (S := S4x128x3) hz3, View.ld_unit_zero (S := S4x2048x3) hz3, View.ld_unit_zero (S := S4x1x2048) hz3, View.ld_unit_zero (S := S4x2048) hz2, View.ld_unit_zero (S := S1x1) hz2, View.readCov_unit_zero (S := S4x2048) _ hz2, View.readCov_unit_zero (S := S1x1) _ hz2]

theorem last_result (c : Dev nD) (i : grid0.Coords) (a1 : Memref sig .tc .vmem S4x128x3 .f32) (h1 : a1.IsWhole) (a2 : Memref sig .tc .vmem S4x2048x3 .f32) (h2 : a2.IsWhole) (a3 : Memref sig .tc .vmem S1x1 .f32) (h3 : a3.IsWhole) (a4 : Memref sig .tc .vmem S4x2048 .f32) (h4 : a4.IsWhole) (a5 : Memref sig .tc .vmem S1x1 .f32) (h5 : a5.IsWhole) (a6 : Memref sig .tc .vmem S4x1x2048 .f32) (h6 : a6.IsWhole) (hc0 : ¬cond0_0 i) (hc1 : cond0_1 i) (x0 : Vec F S4x128x3 .f32) (x1 : Vec F S4x2048x3 .f32) (xs0 : Vec F S4x2048 .f32) (xs1 : Vec F S1x1 .f32) (xs2 : Vec F S4x1x2048 .f32) :
    out0_C_2 c i a1 h1 a2 h2 a3 h3 a4 h4 a5 h5 a6 h6 hc0 hc1 x0 x1 xs0 xs1 xs2 = k0_pay2 (stepMin x0 x1 xs2 xs0) (stepSum x0 x1 xs2 xs1) := by
  unfold out0_C_2
  rw [View.read_writes_eq_canon _ _ _ (cover0_C_2 c i a1 h1 a2 h2 a3 h3 a4 h4 a5 h5 a6 h6 hc0 hc1 x0 x1 xs0 xs1 xs2)]
  unfold kernelRun0_C
  dsimp only
  sl_unfold_words
  rw [View.canon_unit_zero hz2]
  simp only [View.readAt_eq_ld, h1.read_unread, h2.read_unread, h4.read_unread, h5.read_unread, h6.read_unread, View.ld_unit_zero (S := S4x128x3) hz3, View.ld_unit_zero (S := S4x2048x3) hz3, View.ld_unit_zero (S := S4x1x2048) hz3, View.ld_unit_zero (S := S4x2048) hz2, View.ld_unit_zero (S := S1x1) hz2, View.readCov_unit_zero (S := S4x2048) _ hz2, View.readCov_unit_zero (S := S1x1) _ hz2]

end Cert.KernelIdeal.Found

end
-- ==== Proof.KernelChain.lean ====
/-
  The carried buffers point by point, in closed form, and the input blocks at coordinates.

  The first window's block at tile `t` holds at `(b, r, d)` the first cloud's entry `(b, t · 128 + r, d)`; the second
  window's block is the second cloud whole at every tile. After tile `n` the three carried buffers are: the minimum
  buffer and the sum cell updated with tile `n` over what tile `n - 1` left (over the reset values at tile `0`), and the
  row norms, set at tile `0` and kept. The result block, written at the last tile only, is the sum cell plus the
  minimum buffer's total, both after the last tile's update.
-/
import proofs.«177309_j19061064860389_1_alg».proof.Proof.Gen.KernelIdeal.Frame
import proofs.«177309_j19061064860389_1_alg».proof.Proof.KernelFound
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Chain

open Cert.KernelIdeal Cert.KernelIdeal.Gen Cert.KernelIdeal.Found

variable {F : FTy → Type} [FloatOps F]
variable (m : (ℓ : Loc nD τ sig) → Buf (Elt F) ℓ)

/-- The two input blocks at a tile, and the two clouds as the kernel finds them, at their literal types. -/
abbrev xblk (c : Dev nD) (t : Fin cfg0.N) : Vec F S4x128x3 .f32 := iblk m c 0 t
abbrev yblk (c : Dev nD) (t : Fin cfg0.N) : Vec F S4x2048x3 .f32 := iblk m c 1 t
abbrev xarr (c : Dev nD) : Vec F S4x8192x3 .f32 := V m c main_arg0
abbrev yarr (c : Dev nD) : Vec F S4x2048x3 .f32 := V m c main_arg1

/-- The first window moves along the point axis only; the second does not move. -/
theorem idx_x : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem idx_y : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- Tile `t`'s block at `(b, r, d)` is the first cloud at `(b, t · 128 + r, d)`. -/
theorem xblk_apply (c : Dev nD) (t : Fin cfg0.N) (b : Fin 4) (r : Fin 128) (d : Fin 3) (n : Fin 8192)
    (hn : n.val = t.val * 128 + r.val) : xblk m c t (ix3 b r d) = xarr m c (ix3 b n d) := by
  show iblk m c 0 t (ix3 b r d) = V m c main_arg0 (ix3 b n d)
  unfold iblk
  rw [View.read_apply]
  show V m c main_arg0 _ = V m c main_arg0 _
  congr 1
  funext a
  apply Fin.ext
  match a with
  | ⟨0, _⟩ => show win0_0.index t 0 * 4 + 1 * b.val = b.val; rw [(idx_x t).1]; omega
  | ⟨1, _⟩ => show win0_0.index t 1 * 128 + 1 * r.val = n.val; rw [(idx_x t).2.1, hn]; omega
  | ⟨2, _⟩ => show win0_0.index t 2 * 3 + 1 * d.val = d.val; rw [(idx_x t).2.2]; omega

/-- The second window's block is the second cloud. -/
theorem yblk_eq (c : Dev nD) (t : Fin cfg0.N) : yblk m c t = yarr m c := by
  funext j
  show iblk m c 1 t j = V m c main_arg1 j
  unfold iblk
  rw [View.read_apply]
  show V m c main_arg1 _ = V m c main_arg1 _
  congr 1
  funext a
  apply Fin.ext
  match a with
  | ⟨0, _⟩ => show win0_1.index t 0 * 4 + 1 * (j 0).val = (j 0).val; rw [(idx_y t).1]; omega
  | ⟨1, _⟩ => show win0_1.index t 1 * 2048 + 1 * (j 1).val = (j 1).val; rw [(idx_y t).2.1]; omega
  | ⟨2, _⟩ => show win0_1.index t 2 * 3 + 1 * (j 2).val = (j 2).val; rw [(idx_y t).2.2]; omega

/-- The minimum buffer, the sum cell and the row norms after tile `n`. -/
def carried (c : Dev nD) : (n : ℕ) → n < cfg0.N → Vec F S4x2048 .f32 × Vec F S1x1 .f32 × Vec F S4x1x2048 .f32
  | 0, h =>
    (stepMin (xblk m c ⟨0, h⟩) (yblk m c ⟨0, h⟩) (k0_pay5 (yblk m c ⟨0, h⟩)) k0_pay3,
     stepSum (xblk m c ⟨0, h⟩) (yblk m c ⟨0, h⟩) (k0_pay5 (yblk m c ⟨0, h⟩)) k0_pay4,
     k0_pay5 (yblk m c ⟨0, h⟩))
  | n + 1, h =>
    (stepMin (xblk m c ⟨n + 1, h⟩) (yblk m c ⟨n + 1, h⟩) (carried c n (Nat.lt_of_succ_lt h)).2.2 (carried c n (Nat.lt_of_succ_lt h)).1,
     stepSum (xblk m c ⟨n + 1, h⟩) (yblk m c ⟨n + 1, h⟩) (carried c n (Nat.lt_of_succ_lt h)).2.2 (carried c n (Nat.lt_of_succ_lt h)).2.1,
     (carried c n (Nat.lt_of_succ_lt h)).2.2)

/-- What the run states of the carried buffers after tile `n` is that closed form: by induction on the tile. -/
theorem outsAt_carried (c : Dev nD) : ∀ (n : ℕ) (h : n < cfg0.N), (outsAt0 m c n h).2 = carried m c n h
  | 0, h => by
    rw [outsAt0_A m c ⟨0, h⟩ rfl (by show ¬(0 : ℕ) % 64 = 63; decide)]
    dsimp only
    rw [first_min, first_sum, first_rowNorms]
    rfl
  | n + 1, h => by
    have hN : cfg0.N = 64 := N_0
    have h0 : ¬(⟨n + 1, h⟩ : Fin cfg0.N).val % 64 = 0 := by dsimp only; omega
    have ih := outsAt_carried c n (Nat.lt_of_succ_lt h)
    by_cases h1 : (⟨n + 1, h⟩ : Fin cfg0.N).val % 64 = 63
    · rw [outsAt0_C m c ⟨n + 1, h⟩ h0 h1]
      dsimp only
      rw [last_min, last_sum]
      show (stepMin _ _ (outsAt0 m c n _).2.2.2 (outsAt0 m c n _).2.1, stepSum _ _ (outsAt0 m c n _).2.2.2 (outsAt0 m c n _).2.2.1,
        (outsAt0 m c n _).2.2.2) = _
      rw [ih]
      rfl
    · rw [outsAt0_B m c ⟨n + 1, h⟩ h0 h1]
      dsimp only
      rw [middle_min, middle_sum]
      show (stepMin _ _ (outsAt0 m c n _).2.2.2 (outsAt0 m c n _).2.1, stepSum _ _ (outsAt0 m c n _).2.2.2 (outsAt0 m c n _).2.2.1,
        (outsAt0 m c n _).2.2.2) = _
      rw [ih]
      rfl

/-- The result block the last tile writes: the sum cell plus the minimum buffer's total, after that tile's update. -/
theorem result_last (c : Dev nD) (h : 63 < cfg0.N) :
    (outsAt0 m c 63 h).1 = k0_pay2 (carried m c 63 h).1 (carried m c 63 h).2.1 := by
  rw [outsAt0_C m c ⟨63, h⟩ (by show ¬(63 : ℕ) % 64 = 0; decide) rfl]
  dsimp only
  rw [last_result]
  show k0_pay2 (stepMin _ _ (outsAt0 m c 62 _).2.2.2 (outsAt0 m c 62 _).2.1)
    (stepSum _ _ (outsAt0 m c 62 _).2.2.2 (outsAt0 m c 62 _).2.2.1) = _
  rw [outsAt_carried m c 62]
  rfl

end Cert.KernelIdeal.Chain

end
-- ==== Proof.KernelResult.lean ====
/-
  The program's result from the kernel's run.

  The result array `[1, 1]` is written back once, after the last tile, and its one block is the whole array: so after
  the run it holds the block the last tile stored. The two host operations after the region read it as a scalar and
  multiply it by the scale word.
-/
import proofs.«177309_j19061064860389_1_alg».proof.Proof.KernelChain
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Found Cert.KernelIdeal.Chain

variable {F : FTy → Type} [FloatOps F]
variable (m : (ℓ : Loc nD τ sig) → Buf (Elt F) ℓ) (ρ : Dev nD → PrngReg)

theorem lt_N : 63 < cfg0.N := by rw [show cfg0.N = 64 from N_0]; decide

/-- The last tile. -/
abbrev tLast : Fin cfg0.N := ⟨63, lt_N⟩

/-- The result window never moves. -/
theorem idx_o : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- What the last tile leaves in the result block, as contents of the result array. -/
abbrev resultBlock (c : Dev nD) : Buf (Elt F) ((c : Thread nD τ).loc main_v0) := (outsAt0 m c tLast.val tLast.isLt).1

/-- The one write-back writes it. -/
theorem flushed_eq (c : Dev nD) (t : Fin cfg0.N) (hf : (cfg0.win 2).flush t = true) :
    (dats m 0 c).flushed 2 t = ((cfg0.win 2).blk t).view.read (Elt F) (resultBlock m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2]
  show (cfg0.win 2).cut (grid0.coords tLast) (outsAt0 m c tLast.val tLast.isLt).1
    = ((cfg0.win 2).blk tLast).view.read (Elt F) (outsAt0 m c tLast.val tLast.isLt).1
  generalize (outsAt0 m c tLast.val tLast.isLt).1 = blk
  have hz' : (fun a => win0_2.index tLast a * main_v0.ty.shape.size a) = fun _ => 0 := funext fun a => by
    match a with
    | ⟨0, _⟩ => show win0_2.index tLast 0 * 1 = 0; rw [(idx_o tLast).1]
    | ⟨1, _⟩ => show win0_2.index tLast 1 * 1 = 0; rw [(idx_o tLast).2]
  exact (Memref.read_access_unit_zero (Elt F) main_v0 hz' (fun a => by rw [congrFun hz' a]; simp) blk).symm

/-- So the result array ends holding it: the last tile's block covers the array. -/
theorem resultArr (c : Dev nD) : (dats m 0 c).arrAt 2 cfg0.N = resultBlock m c :=
  (dats m 0 c).arrAt_eq_of_cover 2 (resultBlock m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [(idx_o tLast).1, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [(idx_o tLast).2, show win0_2.xsize (grid0.coords tLast) 1 = 1 from by decide +kernel]; omega⟩

/-- The program's result: the result block read as a scalar, times the scale word. -/
def scaled (blk : Vec F S1x1 .f32) : Vec F S_ .f32 :=
  mulf (shapeCast S_ blk shapeCasts_S1x1_S_) (constant (F := F) S_ .f32 0x38D1B717#32)

theorem tail_value (c : Dev nD) :
    Pipeline.afterTail₀ cfgs (dats m) 0 (V0 m) [hostOps1] c main_v2 = scaled (resultBlock m c) := by
  unfold Pipeline.afterTail₀
  show StableHlo.after hostOps1 _ (Proc.devRef .tc main_v2) = _
  after_results
  exact congrArg scaled ((Pipeline.withArrays_arr spec0 launch0.win.arr_inj c (V0 m c) (fun w => (dats m 0 c).arrAt w cfg0.N) 2).trans (resultArr m c))

/-- The run, read: the program's result at the scaled result block, the two clouds unchanged. -/
theorem run : θ_run defs (onTc (τ := τ) (main (F := F))) ⟨m, fun _ => 0, ρ⟩ (fun r => ∀ c : Dev nD,
      r.2.mem ((c.tc : Thread nD τ).loc main_v2) = scaled (resultBlock m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 rfl (fun w => by fin_cases w <;> decide))).trans (tail_value m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Result

end
-- ==== Proof.LibAxisOps.lean ====
/-
  Reductions along one axis, unit-axis casts and broadcasts of rank-2 and rank-3 vectors, read at coordinates on the
  extended reals.

  For a rank-3 vector `v` of extents `A × B × C`: the sum, or from a given word the minimum, over the last axis holds at
  `(a, b)` the sum (the minimum) of `v (a, b, ·)`; the minimum over the middle axis holds at `(a, c)` that of `v (a, ·, c)`.
  For a rank-2 vector the sums over either axis read likewise. A vector cast to a shape with one more unit axis reads the
  entry its other coordinates name, and a vector with a unit axis spread along that axis reads its one entry there. The
  host's reduce with a minimum body over the last axis reads as the kernel's. All are stated at coordinates in `Fin` of
  the extents, so that they rewrite a term at `ix2 a b` / `ix3 a b c` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.AxisOps

open Idealize.ShloMosaic Idealize.ShloMosaic.ValueIdx

variable {A B C : ℕ}

/-! ## The index with a coordinate put back on the reduced axis -/

theorem lift3_ax2 (h : (⟨3, ![A, B, C]⟩ : Shape).Reduces [2] (⟨2, ![A, B]⟩ : Shape)) (a : Fin A) (b : Fin B)
    (k : Fin ((⟨3, ![A, B, C]⟩ : Shape).size 2)) : h.lift (ix2 a b) k = ix3 a b (⟨k.val, k.isLt⟩ : Fin C) := by
  funext c; apply Fin.ext
  fin_cases c <;> rfl

theorem lift3_ax1 (h : (⟨3, ![A, B, C]⟩ : Shape).Reduces [1] (⟨2, ![A, C]⟩ : Shape)) (a : Fin A) (c : Fin C)
    (k : Fin ((⟨3, ![A, B, C]⟩ : Shape).size 1)) : h.lift (ix2 a c) k = ix3 a (⟨k.val, k.isLt⟩ : Fin B) c := by
  funext d; apply Fin.ext
  fin_cases d <;> rfl

theorem lift2_ax1 (h : (⟨2, ![A, B]⟩ : Shape).Reduces [1] (⟨1, ![A]⟩ : Shape)) (a : Fin A)
    (k : Fin ((⟨2, ![A, B]⟩ : Shape).size 1)) : h.lift (ix1 a) k = ix2 a (⟨k.val, k.isLt⟩ : Fin B) := by
  funext d; apply Fin.ext
  fin_cases d <;> rfl

theorem lift2_ax0 (h : (⟨2, ![A, B]⟩ : Shape).Reduces [0] (⟨1, ![B]⟩ : Shape)) (b : Fin B)
    (k : Fin ((⟨2, ![A, B]⟩ : Shape).size 0)) : h.lift (ix1 b) k = ix2 (⟨k.val, k.isLt⟩ : Fin A) b := by
  funext d; apply Fin.ext
  fin_cases d <;> rfl

/-! ## Sums -/

/-- The sum over the last axis of a rank-3 vector, at `(a, b)`. -/
theorem sum3_ax2 (v : FVec Ideal (⟨3, ![A, B, C]⟩ : Shape) .f32) (acc : BitVec 32)
    (h : (⟨3, ![A, B, C]⟩ : Shape).Reduces [2] (⟨2, ![A, B]⟩ : Shape)) (hφ : FKind.Formats .f32)
    (hacc : acc = FKind.add.neutral .f32 hφ) (a : Fin A) (b : Fin B) :
    multiReduction .add [2] (⟨2, ![A, B]⟩ : Shape) v acc h hφ hacc (ix2 a b) = ∑ k : Fin C, v (ix3 a b k) := by
  rw [Ideal.multiReduction_add_single]
  show ∑ k : Fin C, v (h.lift (ix2 a b) k) = _
  exact Finset.sum_congr rfl fun k _ => congrArg v (lift3_ax2 h a b k)

/-- The sum over the lanes of a rank-2 vector, at row `a`. -/
theorem sum2_ax1 (v : FVec Ideal (⟨2, ![A, B]⟩ : Shape) .f32) (acc : BitVec 32)
    (h : (⟨2, ![A, B]⟩ : Shape).Reduces [1] (⟨1, ![A]⟩ : Shape)) (hφ : FKind.Formats .f32)
    (hacc : acc = FKind.add.neutral .f32 hφ) (a : Fin A) :
    multiReduction .add [1] (⟨1, ![A]⟩ : Shape) v acc h hφ hacc (ix1 a) = ∑ k : Fin B, v (ix2 a k) := by
  rw [Ideal.multiReduction_add_single]
  show ∑ k : Fin B, v (h.lift (ix1 a) k) = _
  exact Finset.sum_congr rfl fun k _ => congrArg v (lift2_ax1 h a k)

/-- The sum over the rows of a rank-2 vector, at lane `b`. -/
theorem sum2_ax0 (v : FVec Ideal (⟨2, ![A, B]⟩ : Shape) .f32) (acc : BitVec 32)
    (h : (⟨2, ![A, B]⟩ : Shape).Reduces [0] (⟨1, ![B]⟩ : Shape)) (hφ : FKind.Formats .f32)
    (hacc : acc = FKind.add.neutral .f32 hφ) (b : Fin B) :
    multiReduction .add [0] (⟨1, ![B]⟩ : Shape) v acc h hφ hacc (ix1 b) = ∑ k : Fin A, v (ix2 k b) := by
  rw [Ideal.multiReduction_add_single]
  show ∑ k : Fin A, v (h.lift (ix1 b) k) = _
  exact Finset.sum_congr rfl fun k _ => congrArg v (lift2_ax0 h b k)

/-! ## Minima -/

/-- The minimum over the last axis of a rank-3 vector from the word `acc`, at `(a, b)`. -/
theorem min3_ax2 (v : FVec Ideal (⟨3, ![A, B, C]⟩ : Shape) .f32) (acc : BitVec 32)
    (h : (⟨3, ![A, B, C]⟩ : Shape).Reduces [2] (⟨2, ![A, B]⟩ : Shape)) (hφ : FKind.Formats .f32)
    (hacc : acc = FKind.minimumf.neutral .f32 hφ) (a : Fin A) (b : Fin B) :
    multiReduction .minimumf [2] (⟨2, ![A, B]⟩ : Shape) v acc h hφ hacc (ix2 a b)
      = (Finset.univ : Finset (Fin C)).fold min (Ideal.ofBits .f32 acc) (fun k => v (ix3 a b k)) := by
  rw [multiReduction_minimumf_eq_fold]
  refine (h.fold_filter_drop_single _ _ v (ix2 a b)).trans ?_
  show (Finset.univ : Finset (Fin C)).fold min (Ideal.ofBits .f32 acc) (v ∘ h.lift (ix2 a b)) = _
  exact congrArg (fun f => (Finset.univ : Finset (Fin C)).fold min (Ideal.ofBits .f32 acc) f)
    (funext fun k => congrArg v (lift3_ax2 h a b k))

/-- The minimum over the middle axis of a rank-3 vector from the word `acc`, at `(a, c)`. -/
theorem min3_ax1 (v : FVec Ideal (⟨3, ![A, B, C]⟩ : Shape) .f32) (acc : BitVec 32)
    (h : (⟨3, ![A, B, C]⟩ : Shape).Reduces [1] (⟨2, ![A, C]⟩ : Shape)) (hφ : FKind.Formats .f32)
    (hacc : acc = FKind.minimumf.neutral .f32 hφ) (a : Fin A) (c : Fin C) :
    multiReduction .minimumf [1] (⟨2, ![A, C]⟩ : Shape) v acc h hφ hacc (ix2 a c)
      = (Finset.univ : Finset (Fin B)).fold min (Ideal.ofBits .f32 acc) (fun r => v (ix3 a r c)) := by
  rw [multiReduction_minimumf_eq_fold]
  refine (h.fold_filter_drop_single _ _ v (ix2 a c)).trans ?_
  show (Finset.univ : Finset (Fin B)).fold min (Ideal.ofBits .f32 acc) (v ∘ h.lift (ix2 a c)) = _
  exact congrArg (fun f => (Finset.univ : Finset (Fin B)).fold min (Ideal.ofBits .f32 acc) f)
    (funext fun k => congrArg v (lift3_ax1 h a c k))

/-- The host's reduce with a minimum body over the last axis, from the rank-zero initial value, at `(a, b)`. -/
theorem hostMin3_ax2 {u : Shape} (x : FVec Ideal (⟨3, ![A, B, C]⟩ : Shape) .f32) (init : u.Idx → Ideal .f32)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < u.numel) (a : Fin A) (b : Fin B) :
    Host.reduce FloatOps.minimumf x init h' hu (ix2 a b)
      = (Finset.univ : Finset (Fin C)).fold min (init (Shape.Idx.first hu)) (fun k => x (ix3 a b k)) := by
  rw [Host.reduce_eq_fold_single FloatOps.minimumf x init h' h hu]
  show (Finset.univ : Finset (Fin C)).fold min (init (Shape.Idx.first hu)) (x ∘ h.lift (ix2 a b)) = _
  exact congrArg (fun f => (Finset.univ : Finset (Fin C)).fold min (init (Shape.Idx.first hu)) f)
    (funext fun k => congrArg x (lift3_ax2 h a b k))

/-! ## Casts that add a unit axis -/

variable {α : Type}

/-- `[A, B] → [A, B, 1]`. -/
theorem cast_ab_ab1 (x : (⟨2, ![A, B]⟩ : Shape).Idx → α)
    (hc : (⟨2, ![A, B]⟩ : Shape).ShapeCasts (⟨3, ![A, B, 1]⟩ : Shape)) (a : Fin A) (b : Fin B) (q : Fin 1) :
    shapeCast (⟨3, ![A, B, 1]⟩ : Shape) x hc (ix3 a b q) = x (ix2 a b) :=
  shapeCast_apply x hc (ix3 a b q) (ix2 a b) (by
    rw [Shape.rowMajor_val_two, Shape.rowMajor_val_three]
    have := q.isLt
    show a.val * B + b.val = (a.val * B + b.val) * 1 + q.val
    omega)

/-- `[A, C] → [A, 1, C]`. -/
theorem cast_ac_a1c (x : (⟨2, ![A, C]⟩ : Shape).Idx → α)
    (hc : (⟨2, ![A, C]⟩ : Shape).ShapeCasts (⟨3, ![A, 1, C]⟩ : Shape)) (a : Fin A) (q : Fin 1) (c : Fin C) :
    shapeCast (⟨3, ![A, 1, C]⟩ : Shape) x hc (ix3 a q c) = x (ix2 a c) :=
  shapeCast_apply x hc (ix3 a q c) (ix2 a c) (by
    rw [Shape.rowMajor_val_two, Shape.rowMajor_val_three]
    obtain rfl : q = 0 := Subsingleton.elim _ _
    show a.val * C + c.val = (a.val * 1 + (0 : Fin 1).val) * C + c.val
    simp)

/-- `[A] → [A, 1]`. -/
theorem cast_a_a1 (x : (⟨1, ![A]⟩ : Shape).Idx → α)
    (hc : (⟨1, ![A]⟩ : Shape).ShapeCasts (⟨2, ![A, 1]⟩ : Shape)) (a : Fin A) (q : Fin 1) :
    shapeCast (⟨2, ![A, 1]⟩ : Shape) x hc (ix2 a q) = x (ix1 a) :=
  shapeCast_apply x hc (ix2 a q) (ix1 a) (by
    rw [Shape.rowMajor_val_one, Shape.rowMajor_val_two]
    have := q.isLt
    show a.val = a.val * 1 + q.val
    omega)

/-! ## Broadcasts along a unit axis -/

/-- `[A, B, 1] → [A, B, C]`. -/
theorem bcast_ab1_abc (x : (⟨3, ![A, B, 1]⟩ : Shape).Idx → α)
    (hb : (⟨3, ![A, B, 1]⟩ : Shape).Broadcasts (⟨3, ![A, B, C]⟩ : Shape)) (a : Fin A) (b : Fin B) (c : Fin C) :
    broadcastTo (⟨3, ![A, B, C]⟩ : Shape) x hb (ix3 a b c) = x (ix3 a b (0 : Fin 1)) :=
  broadcastTo_apply x hb (ix3 a b c) (ix3 a b (0 : Fin 1)) (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ =>
      show (0 : Fin 1).val = if (1 : ℕ) = 1 then 0 else c.val
      simp)

/-- `[A, 1, C] → [A, B, C]`. -/
theorem bcast_a1c_abc (x : (⟨3, ![A, 1, C]⟩ : Shape).Idx → α)
    (hb : (⟨3, ![A, 1, C]⟩ : Shape).Broadcasts (⟨3, ![A, B, C]⟩ : Shape)) (a : Fin A) (b : Fin B) (c : Fin C) :
    broadcastTo (⟨3, ![A, B, C]⟩ : Shape) x hb (ix3 a b c) = x (ix3 a (0 : Fin 1) c) :=
  broadcastTo_apply x hb (ix3 a b c) (ix3 a (0 : Fin 1) c) (fun ax => by
    match ax with
    | ⟨0, _⟩ =>
      show a.val = if A = 1 then 0 else a.val
      split
      · have := a.isLt; omega
      · rfl
    | ⟨1, _⟩ =>
      show (0 : Fin 1).val = if (1 : ℕ) = 1 then 0 else b.val
      simp
    | ⟨2, _⟩ =>
      show c.val = if C = 1 then 0 else c.val
      split
      · have := c.isLt; omega
      · rfl)

end Cert.AxisOps

end
-- ==== Proof.Spec.lean ====
/-
  The bidirectional nearest-neighbour distance sum over the extended reals, and the two re-groupings that join a
  tile-by-tile evaluation to the whole-array one.

  For two clouds of points in three dimensions, batch by batch, `dist P Q b n k` is the squared distance of point `n` of `P`
  to point `k` of `Q`, written `|p|² + |q|² - c₂ · ⟨p, q⟩` and floored at `z`; `directed P Q` sums over the points of `P`
  the least distance to a point of `Q`. The distance is symmetric in its two clouds, because sums and products of
  extended reals commute. A cloud of `T · R` points read as `T` tiles of `R` consecutive points gives the same total when the
  per-tile totals are accumulated, and the same least distance when the per-tile minima are folded: both are a change of
  index along the bijection `(t, r) ↦ t · R + r`.
-/
import Idealize.ShloMosaic.PureOps.Ideal
import Idealize.ShloMosaic.PureOps.Ideal.Laws
import Idealize.ShloMosaic.Lib.ValueIdx
import Mathlib.Algebra.BigOperators.Fin
import Mathlib.Order.CompleteLattice.Finset

noncomputable section

open scoped BigOperators

namespace Cert.Chamfer

variable {N M : ℕ}

/-- A cloud: batch, point, coordinate. -/
abbrev Cloud (N : ℕ) := Fin 4 → Fin N → Fin 3 → EReal

/-- The squared norm of a point. -/
def sqn (P : Cloud N) (b : Fin 4) (n : Fin N) : EReal := ∑ d : Fin 3, P b n d * P b n d

/-- The inner product of a point of `P` and a point of `Q`. -/
def dotp (P : Cloud N) (Q : Cloud M) (b : Fin 4) (n : Fin N) (k : Fin M) : EReal := ∑ d : Fin 3, P b n d * Q b k d

/-- The floored squared distance. -/
def dist (c₂ z : EReal) (P : Cloud N) (Q : Cloud M) (b : Fin 4) (n : Fin N) (k : Fin M) : EReal :=
  max ((sqn P b n + sqn Q b k) - c₂ * dotp P Q b n k) z

theorem dotp_comm (P : Cloud N) (Q : Cloud M) (b : Fin 4) (n : Fin N) (k : Fin M) : dotp P Q b n k = dotp Q P b k n :=
  Finset.sum_congr rfl fun d _ => mul_comm _ _

/-- The distance does not depend on which cloud is named first. -/
theorem dist_comm (c₂ z : EReal) (P : Cloud N) (Q : Cloud M) (b : Fin 4) (n : Fin N) (k : Fin M) :
    dist c₂ z P Q b n k = dist c₂ z Q P b k n := by
  unfold dist
  rw [add_comm (sqn P b n), dotp_comm]

/-- Over the points of `P`, the least distance to a point of `Q`, summed. -/
def directed (c₂ z : EReal) (P : Cloud N) (Q : Cloud M) : EReal := ∑ b : Fin 4, ∑ n : Fin N, ⨅ k : Fin M, dist c₂ z P Q b n k

/-- Both directions, scaled. -/
def chamfer (c₂ z s : EReal) (P : Cloud N) (Q : Cloud M) : EReal := (directed c₂ z P Q + directed c₂ z Q P) * s

/-! ## The words both programs share, and vectors as clouds -/

open Idealize.ShloMosaic in
/-- The factor on the inner product (the word of `2.0`), kept as its word: both programs carry the same one. -/
abbrev two : EReal := Ideal.ofBits .f32 0x40000000#32
open Idealize.ShloMosaic in
/-- The floor of a distance (the zero word). -/
abbrev floor : EReal := Ideal.ofBits .f32 0x00000000#32
open Idealize.ShloMosaic in
/-- The final scale (the word nearest `1e-4`). -/
abbrev scale : EReal := Ideal.ofBits .f32 0x38D1B717#32

open Idealize.ShloMosaic in
/-- The word both programs start their minima from is `+∞`. -/
theorem inf_word : Ideal.ofBits .f32 0x7F800000#32 = (⊤ : EReal) := by
  simp [Ideal.ofBits, Ideal.ieee]

open Idealize.ShloMosaic in
/-- A vector of `4 × N × 3` entries as a cloud. -/
def cloud (v : (⟨3, ![4, N, 3]⟩ : Shape).Idx → EReal) : Cloud N := fun b n d => v (ValueIdx.ix3 b n d)

/-! ## Folds of `min` from `⊤` are infima -/

theorem fold_min_top {ι : Type*} (s : Finset ι) (f : ι → EReal) : s.fold min ⊤ f = s.inf f := by
  classical
  induction s using Finset.induction_on with
  | empty => simp
  | insert a s ha ih => rw [Finset.fold_insert ha, Finset.inf_insert, ih]

theorem fold_min_univ {ι : Type*} [Fintype ι] (f : ι → EReal) : (Finset.univ : Finset ι).fold min ⊤ f = ⨅ i, f i := by
  rw [fold_min_top, Finset.inf_univ_eq_iInf]

/-! ## Tiles -/

/-- Point `r` of tile `t` is point `t · 128 + r`. -/
def row (t : Fin 64) (r : Fin 128) : Fin 8192 := ⟨t.val * 128 + r.val, by have := t.isLt; have := r.isLt; omega⟩

/-- The tiles partition the points. -/
def tileEquiv : Fin 64 × Fin 128 ≃ Fin 8192 where
  toFun p := row p.1 p.2
  invFun n := (⟨n.val / 128, by have := n.isLt; omega⟩, ⟨n.val % 128, Nat.mod_lt _ (by decide)⟩)
  left_inv p := by
    obtain ⟨t, r⟩ := p
    have := t.isLt; have := r.isLt
    refine Prod.ext (Fin.ext ?_) (Fin.ext ?_)
    · show (t.val * 128 + r.val) / 128 = t.val; omega
    · show (t.val * 128 + r.val) % 128 = r.val; omega
  right_inv n := Fin.ext (by show n.val / 128 * 128 + n.val % 128 = n.val; omega)

theorem sum_tiles {α : Type*} [AddCommMonoid α] (f : Fin 8192 → α) : ∑ n, f n = ∑ t : Fin 64, ∑ r : Fin 128, f (row t r) := by
  rw [← Equiv.sum_comp tileEquiv f, Fintype.sum_prod_type]; rfl

theorem iInf_tiles (f : Fin 8192 → EReal) : ⨅ n, f n = ⨅ t : Fin 64, ⨅ r : Fin 128, f (row t r) := by
  rw [← Equiv.iInf_comp (g := f) tileEquiv, iInf_prod]; rfl

/-- Tile `t` for a natural number (taken modulo the number of tiles, so that it is total). -/
def tile (t : ℕ) : Fin 64 := ⟨t % 64, Nat.mod_lt _ (by decide)⟩

theorem tile_of_lt {t : ℕ} (h : t < 64) : tile t = ⟨t, h⟩ := Fin.ext (Nat.mod_eq_of_lt h)

theorem sum_range_tile {α : Type*} [AddCommMonoid α] (f : Fin 64 → α) : ∑ t ∈ Finset.range 64, f (tile t) = ∑ t : Fin 64, f t := by
  rw [Finset.sum_range]
  exact Finset.sum_congr rfl fun t _ => congrArg f (tile_of_lt t.isLt)

theorem inf_range_tile (f : Fin 64 → EReal) : (Finset.range 64).inf (fun t => f (tile t)) = ⨅ t : Fin 64, f t := by
  rw [← Finset.inf_univ_eq_iInf]
  apply le_antisymm
  · refine Finset.le_inf fun t _ => ?_
    have := Finset.inf_le (f := fun t => f (tile t)) (Finset.mem_range.2 t.isLt)
    rwa [tile_of_lt t.isLt] at this
  · refine Finset.le_inf fun t ht => ?_
    exact Finset.inf_le (Finset.mem_univ (tile t))

/-- A tile's distances are the whole cloud's at the tile's points. -/
theorem dist_tile (c₂ z : EReal) {P₀ : Cloud 128} {P : Cloud 8192} (Q : Cloud M) (t : Fin 64)
    (h : ∀ b r d, P₀ b r d = P b (row t r) d) (b : Fin 4) (r : Fin 128) (k : Fin M) :
    dist c₂ z P₀ Q b r k = dist c₂ z P Q b (row t r) k := by
  unfold dist sqn dotp
  simp only [h]

/-! ## The tile-by-tile evaluation

`P` has 8192 points read as 64 tiles of 128; `Q` is whole. -/

variable (c₂ z : EReal) (P : Cloud 8192) (Q : Cloud M)

/-- Tile `t`'s share of the first direction: over its points, the least distance to a point of `Q`, summed over the batches. -/
def tileSum (t : Fin 64) : EReal := ∑ b : Fin 4, ∑ r : Fin 128, ⨅ k : Fin M, dist c₂ z P Q b (row t r) k

/-- Tile `t`'s least distance to point `k` of `Q`. -/
def tileMin (t : Fin 64) (b : Fin 4) (k : Fin M) : EReal := ⨅ r : Fin 128, dist c₂ z P Q b (row t r) k

/-- The per-tile shares, accumulated over all tiles, are the first direction. -/
theorem sum_tileSum : ∑ t ∈ Finset.range 64, tileSum c₂ z P Q (tile t) = directed c₂ z P Q := by
  rw [sum_range_tile (tileSum c₂ z P Q)]
  unfold tileSum directed
  rw [Finset.sum_comm]
  exact Finset.sum_congr rfl fun b _ => (sum_tiles fun n => ⨅ k : Fin M, dist c₂ z P Q b n k).symm

/-- The per-tile minima, folded over all tiles and summed over the points of `Q`, are the second direction. -/
theorem sum_inf_tileMin :
    ∑ b : Fin 4, ∑ k : Fin M, (Finset.range 64).inf (fun t => tileMin c₂ z P Q (tile t) b k) = directed c₂ z Q P := by
  unfold directed
  refine Finset.sum_congr rfl fun b _ => Finset.sum_congr rfl fun k _ => ?_
  rw [inf_range_tile (fun t => tileMin c₂ z P Q t b k)]
  unfold tileMin
  rw [iInf_tiles (fun n => dist c₂ z Q P b k n)]
  exact iInf_congr fun t => iInf_congr fun r => dist_comm c₂ z P Q b (row t r) k

end Cert.Chamfer

end
-- ==== Proof.KernelPayload.lean ====
/-
  The kernel body's arithmetic on the extended reals, read at coordinates.

  With `x0` the tile's block of the first cloud, `x1` the second cloud and `sq` the second cloud's squared norms: the
  distance block holds at `(b, r, k)` the floored squared distance of the tile's point `r` to point `k`; the update of
  the sum cell adds, over the batches and the tile's points, each point's least distance; the update of the minimum buffer
  takes at `(b, k)` the minimum with the tile's least distance to point `k`; the reset values are `+∞` and `0`; and the
  result block is the sum cell plus the total of the minimum buffer. The matrix product with the contraction over the
  coordinate axis reads as the inner product of the two points.
-/
import proofs.«177309_j19061064860389_1_alg».proof.Proof.Gen.KernelIdeal.Skeleton
import proofs.«177309_j19061064860389_1_alg».proof.Proof.LibAxisOps
import proofs.«177309_j19061064860389_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx Idealize.SL.Sem

namespace Cert.KernelIdeal.Payload

open Cert.KernelIdeal Cert.KernelIdeal.Gen Cert.AxisOps Cert.Chamfer

theorem lhs_0 (i : S4x128x2048.Idx) (q : dot_S4x128x3_S4x2048x3_S4x128x2048_2_2_1_1_0_0.contr.Idx) : (dot_S4x128x3_S4x2048x3_S4x128x2048_2_2_1_1_0_0.lhsIdx i q 0).val = (i 0).val := by
  unfold DotDims.lhsIdx
  rw [dif_pos (show (0 : Fin S4x128x3.rank) ∈ dot_S4x128x3_S4x2048x3_S4x128x2048_2_2_1_1_0_0.lhsBatch by decide)]
  rfl
theorem lhs_1 (i : S4x128x2048.Idx) (q : dot_S4x128x3_S4x2048x3_S4x128x2048_2_2_1_1_0_0.contr.Idx) : (dot_S4x128x3_S4x2048x3_S4x128x2048_2_2_1_1_0_0.lhsIdx i q 1).val = (i 1).val := by
  unfold DotDims.lhsIdx
  rw [dif_neg (show ¬(1 : Fin S4x128x3.rank) ∈ dot_S4x128x3_S4x2048x3_S4x128x2048_2_2_1_1_0_0.lhsBatch by decide), dif_pos (show (1 : Fin S4x128x3.rank) ∈ dot_S4x128x3_S4x2048x3_S4x128x2048_2_2_1_1_0_0.lhsNonContracting by decide)]
  rfl
theorem lhs_2 (i : S4x128x2048.Idx) (q : dot_S4x128x3_S4x2048x3_S4x128x2048_2_2_1_1_0_0.contr.Idx) : (dot_S4x128x3_S4x2048x3_S4x128x2048_2_2_1_1_0_0.lhsIdx i q 2).val = (q ⟨0, by decide⟩).val :=
  dot_S4x128x3_S4x2048x3_S4x128x2048_2_2_1_1_0_0.lhsIdx_val_of_single rfl i q
theorem rhs_0 (i : S4x128x2048.Idx) (q : dot_S4x128x3_S4x2048x3_S4x128x2048_2_2_1_1_0_0.contr.Idx) : (dot_S4x128x3_S4x2048x3_S4x128x2048_2_2_1_1_0_0.rhsIdx i q 0).val = (i 0).val := by
  unfold DotDims.rhsIdx
  rw [dif_pos (show (0 : Fin S4x2048x3.rank) ∈ dot_S4x128x3_S4x2048x3_S4x128x2048_2_2_1_1_0_0.rhsBatch by decide)]
  rfl
theorem rhs_1 (i : S4x128x2048.Idx) (q : dot_S4x128x3_S4x2048x3_S4x128x2048_2_2_1_1_0_0.contr.Idx) : (dot_S4x128x3_S4x2048x3_S4x128x2048_2_2_1_1_0_0.rhsIdx i q 1).val = (i 2).val := by
  unfold DotDims.rhsIdx
  rw [dif_neg (show ¬(1 : Fin S4x2048x3.rank) ∈ dot_S4x128x3_S4x2048x3_S4x128x2048_2_2_1_1_0_0.rhsBatch by decide), dif_pos (show (1 : Fin S4x2048x3.rank) ∈ dot_S4x128x3_S4x2048x3_S4x128x2048_2_2_1_1_0_0.rhsNonContracting by decide)]
  rfl
theorem rhs_2 (i : S4x128x2048.Idx) (q : dot_S4x128x3_S4x2048x3_S4x128x2048_2_2_1_1_0_0.contr.Idx) : (dot_S4x128x3_S4x2048x3_S4x128x2048_2_2_1_1_0_0.rhsIdx i q 2).val = (q ⟨0, by decide⟩).val :=
  dot_S4x128x3_S4x2048x3_S4x128x2048_2_2_1_1_0_0.rhsIdx_val_of_single rfl i q

/-- The block's inner products: the matrix product into the zero accumulator, at `(b, r, k)`, is the sum over the three
    coordinates of the products of point `r` of the tile and point `k` of the second cloud. -/
theorem inner_apply (prec : Option ContractPrecision) (x0 : FVec Ideal S4x128x3 .f32) (x1 : FVec Ideal S4x2048x3 .f32)
    (b : Fin 4) (r : Fin 128) (k : Fin 2048) :
    matmul (F := Ideal) dot_S4x128x3_S4x2048x3_S4x128x2048_2_2_1_1_0_0 prec x0 x1 (constant (F := Ideal) S4x128x2048 .f32 0x00000000#32) (ix3 b r k)
      = ∑ d : Fin 3, x0 (ix3 b r d) * x1 (ix3 b k d) := by
  simp only [matmul]
  rw [Ideal.matmul_constant_zero_apply, ← Equiv.sum_comp (ValueIdx.contrEquiv1 dot_S4x128x3_S4x2048x3_S4x128x2048_2_2_1_1_0_0 3 rfl rfl).symm]
  refine Finset.sum_congr rfl fun d _ => ?_
  have hk := ValueIdx.contrEquiv1_symm_val dot_S4x128x3_S4x2048x3_S4x128x2048_2_2_1_1_0_0 3 rfl rfl d
  have el : dot_S4x128x3_S4x2048x3_S4x128x2048_2_2_1_1_0_0.lhsIdx (ix3 b r k) ((ValueIdx.contrEquiv1 dot_S4x128x3_S4x2048x3_S4x128x2048_2_2_1_1_0_0 3 rfl rfl).symm d) = ix3 b r d := funext fun a => Fin.ext (by
    match a with
    | ⟨0, _⟩ => exact lhs_0 _ _
    | ⟨1, _⟩ => exact lhs_1 _ _
    | ⟨2, _⟩ => exact (lhs_2 _ _).trans hk)
  have er : dot_S4x128x3_S4x2048x3_S4x128x2048_2_2_1_1_0_0.rhsIdx (ix3 b r k) ((ValueIdx.contrEquiv1 dot_S4x128x3_S4x2048x3_S4x128x2048_2_2_1_1_0_0 3 rfl rfl).symm d) = ix3 b k d := funext fun a => Fin.ext (by
    match a with
    | ⟨0, _⟩ => exact rhs_0 _ _
    | ⟨1, _⟩ => exact rhs_1 _ _
    | ⟨2, _⟩ => exact (rhs_2 _ _).trans hk)
  rw [el, er]

variable (x0 : Vec Ideal S4x128x3 .f32) (x1 : Vec Ideal S4x2048x3 .f32)

set_option backward.isDefEq.respectTransparency.types false in
/-- The stored row norms: at `(b, ·, k)` the squared norm of point `k` of the second cloud. -/
theorem rowNorms_apply (b : Fin 4) (q : Fin 1) (k : Fin 2048) : k0_pay5 x1 (ix3 b q k) = sqn (cloud x1) b k := by
  unfold k0_pay5
  dsimp only
  rw [shapeCast_self, cast_ac_a1c, sum3_ax2]
  rfl

set_option backward.isDefEq.respectTransparency.types false in
/-- The distance block. -/
theorem dist_apply (sq : Vec Ideal S4x1x2048 .f32) (hsq : ∀ b k, sq (ix3 b (0 : Fin 1) k) = sqn (cloud x1) b k)
    (b : Fin 4) (r : Fin 128) (k : Fin 2048) :
    k0_pay6 x0 x1 sq (ix3 b r k) = dist two floor (cloud x0) (cloud x1) b r k := by
  unfold k0_pay6
  dsimp only
  simp only [maximumf_apply, subf_apply, addf_apply, mulf_apply, broadcast_apply]
  rw [bcast_ab1_abc, cast_ab_ab1, sum3_ax2, bcast_a1c_abc, inner_apply, hsq]
  rfl

set_option backward.isDefEq.respectTransparency.types false in
/-- The sum cell after this tile: what it held plus, over the batches and the tile's points, the least distance. -/
theorem stepSum_apply (sq : Vec Ideal S4x1x2048 .f32) (hsq : ∀ b k, sq (ix3 b (0 : Fin 1) k) = sqn (cloud x1) b k)
    (acc : Vec Ideal S1x1 .f32) :
    k0_pay7 x0 x1 sq acc (ix2 (0 : Fin 1) (0 : Fin 1))
      = acc (ix2 (0 : Fin 1) (0 : Fin 1)) + ∑ b : Fin 4, ∑ r : Fin 128, ⨅ k : Fin 2048, dist two floor (cloud x0) (cloud x1) b r k := by
  unfold k0_pay7
  dsimp only
  rw [shapeCast_self]
  simp only [addf_apply]
  rw [cast_a_a1, sum2_ax0]
  refine congrArg (_ + ·) (Finset.sum_congr rfl fun b _ => ?_)
  rw [cast_a_a1, sum2_ax1]
  refine Finset.sum_congr rfl fun r _ => ?_
  rw [min3_ax2, inf_word, fold_min_univ]
  exact iInf_congr fun k => dist_apply x0 x1 sq hsq b r k

set_option backward.isDefEq.respectTransparency.types false in
/-- The minimum buffer after this tile: at `(b, k)` the minimum of what it held and the tile's least distance to `k`. -/
theorem stepMin_apply (sq : Vec Ideal S4x1x2048 .f32) (hsq : ∀ b k, sq (ix3 b (0 : Fin 1) k) = sqn (cloud x1) b k)
    (mins : Vec Ideal S4x2048 .f32) (b : Fin 4) (k : Fin 2048) :
    k0_pay1 (k0_pay8 x0 x1 sq mins) (ix2 b k)
      = min (mins (ix2 b k)) (⨅ r : Fin 128, dist two floor (cloud x0) (cloud x1) b r k) := by
  unfold k0_pay1 k0_pay8
  dsimp only
  rw [shapeCast_self]
  simp only [minimumf_apply]
  rw [min3_ax1, inf_word, fold_min_univ]
  exact congrArg (min _) (iInf_congr fun r => dist_apply x0 x1 sq hsq b r k)

/-- The minimum buffer's reset value. -/
theorem resetMin_apply (i : S4x2048.Idx) : k0_pay3 (F := Ideal) i = ⊤ := by
  unfold k0_pay3
  rw [shapeCast_self]
  exact inf_word

/-- The sum cell's reset value. -/
theorem resetSum_apply (i : S1x1.Idx) : k0_pay4 (F := Ideal) i = 0 := by
  unfold k0_pay4
  rw [shapeCast_self]
  exact Ideal.ofBits_zero_f32

set_option backward.isDefEq.respectTransparency.types false in
/-- The result block: the sum cell plus the minimum buffer's total. -/
theorem result_apply (mins : Vec Ideal S4x2048 .f32) (acc : Vec Ideal S1x1 .f32) :
    k0_pay2 mins acc (ix2 (0 : Fin 1) (0 : Fin 1))
      = acc (ix2 (0 : Fin 1) (0 : Fin 1)) + ∑ b : Fin 4, ∑ k : Fin 2048, mins (ix2 b k) := by
  unfold k0_pay2
  dsimp only
  simp only [addf_apply]
  rw [cast_a_a1, sum2_ax0]
  refine congrArg (_ + ·) (Finset.sum_congr rfl fun b _ => ?_)
  rw [cast_a_a1, sum2_ax1]

end Cert.KernelIdeal.Payload

end
-- ==== Proof.KernelTiles.lean ====
/-
  The carried buffers' values on the extended reals.

  After tile `n`: the row-norm buffer holds the second cloud's squared norms; the sum cell holds the shares of tiles
  `0 … n` added up; the minimum buffer holds at `(b, k)` the least, over tiles `0 … n`, of the tile's least distance to
  point `k`. By induction on the tile: each update adds the tile's share to the sum cell and takes the minimum with the
  tile's least distances, starting from `0` and from `+∞`. After the last tile the result block is therefore the first
  direction plus the second.
-/
import proofs.«177309_j19061064860389_1_alg».proof.Proof.KernelChain
import proofs.«177309_j19061064860389_1_alg».proof.Proof.KernelPayload
import proofs.«177309_j19061064860389_1_alg».proof.Proof.Spec

noncomputable section

open scoped BigOperators
open Idealize.ShloMosaic Idealize.ShloMosaic.TcCoe Idealize.ShloMosaic.ValueIdx Idealize.SL.Sem

namespace Cert.KernelIdeal.Tiles

open Cert.KernelIdeal Cert.KernelIdeal.Gen Cert.KernelIdeal.Found Cert.KernelIdeal.Chain Cert.KernelIdeal.Payload Cert.Chamfer

variable (m : (ℓ : Loc nD τ sig) → Buf (Elt Ideal) ℓ)

/-- The two clouds as the kernel finds them. -/
abbrev X (c : Dev nD) : Cloud 8192 := cloud (xarr m c)
abbrev Y (c : Dev nD) : Cloud 2048 := cloud (yarr m c)

theorem lt64 (t : Fin cfg0.N) : t.val < 64 := lt_of_lt_of_eq t.isLt N_0

/-- A tile's block is the tile's rows of the first cloud. -/
theorem xtile (c : Dev nD) (t : Fin cfg0.N) (b : Fin 4) (r : Fin 128) (d : Fin 3) :
    cloud (xblk m c t) b r d = X m c b (row ⟨t.val, lt64 t⟩ r) d :=
  xblk_apply m c t b r d (row ⟨t.val, lt64 t⟩ r) rfl

theorem ytile (c : Dev nD) (t : Fin cfg0.N) : cloud (yblk m c t) = Y m c := congrArg cloud (yblk_eq m c t)

/-- A tile's distances are the clouds' at the tile's rows. -/
theorem tile_dist (c : Dev nD) (t : Fin cfg0.N) (b : Fin 4) (r : Fin 128) (k : Fin 2048) :
    dist two floor (cloud (xblk m c t)) (cloud (yblk m c t)) b r k = dist two floor (X m c) (Y m c) b (row ⟨t.val, lt64 t⟩ r) k := by
  rw [ytile]
  exact dist_tile two floor (Y m c) ⟨t.val, lt64 t⟩ (xtile m c t) b r k

/-- One tile's update of the sum cell adds the tile's share. -/
theorem stepSum_tile (c : Dev nD) (t : Fin cfg0.N) (sq : Vec Ideal S4x1x2048 .f32)
    (hsq : ∀ b k, sq (ix3 b (0 : Fin 1) k) = sqn (Y m c) b k) (acc : Vec Ideal S1x1 .f32) :
    stepSum (xblk m c t) (yblk m c t) sq acc (ix2 (0 : Fin 1) (0 : Fin 1))
      = acc (ix2 (0 : Fin 1) (0 : Fin 1)) + tileSum two floor (X m c) (Y m c) ⟨t.val, lt64 t⟩ := by
  refine (stepSum_apply (xblk m c t) (yblk m c t) sq (by rw [ytile]; exact hsq) acc).trans ?_
  unfold tileSum
  exact congrArg (_ + ·) (Finset.sum_congr rfl fun b _ => Finset.sum_congr rfl fun r _ => iInf_congr fun k => tile_dist m c t b r k)

/-- One tile's update of the minimum buffer takes the minimum with the tile's least distances. -/
theorem stepMin_tile (c : Dev nD) (t : Fin cfg0.N) (sq : Vec Ideal S4x1x2048 .f32)
    (hsq : ∀ b k, sq (ix3 b (0 : Fin 1) k) = sqn (Y m c) b k) (mins : Vec Ideal S4x2048 .f32) (b : Fin 4) (k : Fin 2048) :
    stepMin (xblk m c t) (yblk m c t) sq mins (ix2 b k)
      = min (mins (ix2 b k)) (tileMin two floor (X m c) (Y m c) ⟨t.val, lt64 t⟩ b k) := by
  refine (stepMin_apply (xblk m c t) (yblk m c t) sq (by rw [ytile]; exact hsq) mins b k).trans ?_
  unfold tileMin
  exact congrArg (min _) (iInf_congr fun r => tile_dist m c t b r k)

/-- The row norms the first tile stores. -/
theorem rowNorms_tile (c : Dev nD) (t : Fin cfg0.N) (b : Fin 4) (k : Fin 2048) :
    k0_pay5 (yblk m c t) (ix3 b (0 : Fin 1) k) = sqn (Y m c) b k := by
  rw [rowNorms_apply, ytile]

/-- The carried buffers after tile `n`. -/
theorem carried_value (c : Dev nD) : ∀ (n : ℕ) (h : n < cfg0.N),
    (∀ b k, (carried m c n h).2.2 (ix3 b (0 : Fin 1) k) = sqn (Y m c) b k)
    ∧ (carried m c n h).2.1 (ix2 (0 : Fin 1) (0 : Fin 1)) = ∑ t ∈ Finset.range (n + 1), tileSum two floor (X m c) (Y m c) (tile t)
    ∧ (∀ b k, (carried m c n h).1 (ix2 b k) = (Finset.range (n + 1)).inf (fun t => tileMin two floor (X m c) (Y m c) (tile t) b k))
  | 0, h => by
    have ht : (⟨(⟨0, h⟩ : Fin cfg0.N).val, lt64 ⟨0, h⟩⟩ : Fin 64) = tile 0 := (tile_of_lt _).symm
    refine ⟨fun b k => rowNorms_tile m c ⟨0, h⟩ b k, ?_, fun b k => ?_⟩
    · show stepSum (xblk m c ⟨0, h⟩) (yblk m c ⟨0, h⟩) (k0_pay5 (yblk m c ⟨0, h⟩)) (k0_pay4 (F := Ideal)) (ix2 (0 : Fin 1) (0 : Fin 1)) = _
      rw [stepSum_tile m c ⟨0, h⟩ _ (rowNorms_tile m c ⟨0, h⟩), resetSum_apply, zero_add, ht, Finset.sum_range_one]
    · show stepMin (xblk m c ⟨0, h⟩) (yblk m c ⟨0, h⟩) (k0_pay5 (yblk m c ⟨0, h⟩)) (k0_pay3 (F := Ideal)) (ix2 b k) = _
      rw [stepMin_tile m c ⟨0, h⟩ _ (rowNorms_tile m c ⟨0, h⟩), resetMin_apply, ht, Finset.range_one, Finset.inf_singleton]
      exact min_eq_right le_top
  | n + 1, h => by
    obtain ⟨ihq, ihs, ihm⟩ := carried_value c n (Nat.lt_of_succ_lt h)
    have ht : (⟨(⟨n + 1, h⟩ : Fin cfg0.N).val, lt64 ⟨n + 1, h⟩⟩ : Fin 64) = tile (n + 1) := (tile_of_lt _).symm
    refine ⟨ihq, ?_, fun b k => ?_⟩
    · show stepSum (xblk m c ⟨n + 1, h⟩) (yblk m c ⟨n + 1, h⟩) (carried m c n _).2.2 (carried m c n _).2.1 (ix2 (0 : Fin 1) (0 : Fin 1)) = _
      rw [stepSum_tile m c ⟨n + 1, h⟩ _ ihq, ihs, ht, Finset.sum_range_succ _ (n + 1)]
    · show stepMin (xblk m c ⟨n + 1, h⟩) (yblk m c ⟨n + 1, h⟩) (carried m c n _).2.2 (carried m c n _).1 (ix2 b k) = _
      rw [stepMin_tile m c ⟨n + 1, h⟩ _ ihq, ihm b k, ht, Finset.range_add_one (n := n + 1), Finset.inf_insert]
      exact min_comm _ _

/-- The result block after the last tile: the first direction plus the second. -/
theorem result_value (c : Dev nD) (h : 63 < cfg0.N) :
    (outsAt0 m c 63 h).1 (ix2 (0 : Fin 1) (0 : Fin 1))
      = directed two floor (X m c) (Y m c) + directed two floor (Y m c) (X m c) := by
  obtain ⟨_, hs, hm⟩ := carried_value m c 63 h
  rw [result_last, result_apply, hs, sum_tileSum two floor (X m c) (Y m c), ← sum_inf_tileMin two floor (X m c) (Y m c)]
  exact congrArg (_ + ·) (Finset.sum_congr rfl fun b _ => Finset.sum_congr rfl fun k _ => hm b k)

end Cert.KernelIdeal.Tiles

end
-- ==== Proof.KernelClaim.lean ====
/-
  The kernel's result on the extended reals is the scaled sum of the two directed distance sums of the clouds it is
  given: the result block after the last tile is the first direction plus the second, the host reads it as a scalar and
  multiplies by the scale word.
-/
import proofs.«177309_j19061064860389_1_alg».proof.Proof.KernelResult
import proofs.«177309_j19061064860389_1_alg».proof.Proof.KernelTiles

noncomputable section

open Idealize.ShloMosaic Idealize.ShloMosaic.TcCoe Idealize.ShloMosaic.ValueIdx Idealize.SL.Sem

namespace Cert.KernelIdeal.Tiles

open Cert.KernelIdeal Cert.KernelIdeal.Gen Cert.KernelIdeal.Chain Cert.KernelIdeal.Result Cert.Chamfer

variable (m : (ℓ : Loc nD τ sig) → Buf (Elt Ideal) ℓ)

/-- A `[1, 1]` block read as a scalar is its one entry. -/
theorem scalar_apply (blk : Vec Ideal S1x1 .f32) (i : S_.Idx) :
    shapeCast S_ blk shapeCasts_S1x1_S_ i = blk (ix2 (0 : Fin 1) (0 : Fin 1)) :=
  shapeCast_apply blk shapeCasts_S1x1_S_ i (ix2 (0 : Fin 1) (0 : Fin 1)) (by
    rw [Shape.rowMajor_val_two]
    show (0 : ℕ) * 1 + 0 = (Shape.rowMajorPi S_.size i).val
    rw [Shape.rowMajorPi_zero])

/-- The host tail of a block: its one entry times the scale word. -/
theorem scaled_apply (blk : Vec Ideal S1x1 .f32) (i : S_.Idx) : scaled blk i = blk (ix2 (0 : Fin 1) (0 : Fin 1)) * scale := by
  show shapeCast S_ blk shapeCasts_S1x1_S_ i * Ideal.ofBits .f32 0x38D1B717#32 = _
  rw [scalar_apply]

theorem scaled_value (c : Dev nD) :
    scaled (resultBlock m c) = fun _ => chamfer two floor scale (X m c) (Y m c) := by
  funext i
  rw [scaled_apply]
  exact congrArg (· * scale) (result_value m c lt_N)

end Cert.KernelIdeal.Tiles

end
-- ==== Proof.RefValue.lean ====
/-
  The reference's result on the extended reals is the scaled sum of the two directed distance sums.

  The reference builds, for each direction, the full matrix of floored squared distances `|p|² + |q|² - 2⟨p, q⟩` (the squared
  norms by a sum over the coordinate axis from `0`, the inner products by a `dot_general` contracting that axis), takes the
  minimum along the other cloud's axis from `+∞`, and sums everything from `0`; it adds the two totals and multiplies by the
  scale word. Read one operation at a time at coordinates, the matrix entry is `dist`, the row minimum is the infimum
  over the other cloud, and the total is `directed`.
-/
import proofs.«177309_j19061064860389_1_alg».proof.Proof.Gen.ReferenceIdeal.Read
import proofs.«177309_j19061064860389_1_alg».proof.Proof.LibAxisOps
import proofs.«177309_j19061064860389_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Chamfer Cert.AxisOps

variable (x0 : (⟨S4x8192x3, .f32⟩ : BufTy).Contents (Elt Ideal)) (x1 : (⟨S4x2048x3, .f32⟩ : BufTy).Contents (Elt Ideal))

/-- A sum started from the zero word is the sum. -/
theorem zero_word_add (a : EReal) : Ideal.ofBits .f32 0x00000000#32 + a = a := by rw [Ideal.ofBits_zero_f32, zero_add]

/-! ## Where each stage reads its operand -/

theorem at_sq0 (b : Fin 4) (n : Fin 8192) (k : Fin 2048) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)
theorem at_sq1 (b : Fin 4) (n : Fin 8192) (k : Fin 2048) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)
theorem at_l4 (b : Fin 4) (n : Fin 8192) (k : Fin 2048) (d : Fin 3) : lidx_main_v4 (ix3 b n k) d = ix3 b n d :=
  funext fun a => Fin.ext (by match a with | ⟨0, _⟩ => rfl | ⟨1, _⟩ => rfl | ⟨2, _⟩ => rfl)
theorem at_r4 (b : Fin 4) (n : Fin 8192) (k : Fin 2048) (d : Fin 3) : ridx_main_v4 (ix3 b n k) d = ix3 b k d :=
  funext fun a => Fin.ext (by match a with | ⟨0, _⟩ => rfl | ⟨1, _⟩ => rfl | ⟨2, _⟩ => rfl)

theorem at_sq1' (b : Fin 4) (k : Fin 2048) (n : Fin 8192) (d : Fin 3) :
    idx_main_v18 (idx_main_v22 (idx_main_v24 (ix3 b k n))) d = ix3 b k d :=
  funext fun a => Fin.ext (by match a with | ⟨0, _⟩ => rfl | ⟨1, _⟩ => rfl | ⟨2, _⟩ => rfl)
theorem at_sq0' (b : Fin 4) (k : Fin 2048) (n : Fin 8192) (d : Fin 3) :
    idx_main_v20 (idx_main_v23 (idx_main_v25 (ix3 b k n))) d = ix3 b n d :=
  funext fun a => Fin.ext (by match a with | ⟨0, _⟩ => rfl | ⟨1, _⟩ => rfl | ⟨2, _⟩ => rfl)
theorem at_l21 (b : Fin 4) (k : Fin 2048) (n : Fin 8192) (d : Fin 3) : lidx_main_v21 (ix3 b k n) d = ix3 b k d :=
  funext fun a => Fin.ext (by match a with | ⟨0, _⟩ => rfl | ⟨1, _⟩ => rfl | ⟨2, _⟩ => rfl)
theorem at_r21 (b : Fin 4) (k : Fin 2048) (n : Fin 8192) (d : Fin 3) : ridx_main_v21 (ix3 b k n) d = ix3 b n d :=
  funext fun a => Fin.ext (by match a with | ⟨0, _⟩ => rfl | ⟨1, _⟩ => rfl | ⟨2, _⟩ => rfl)

/-! ## The first direction -/

/-- The first distance matrix. -/
theorem fwd_dist (b : Fin 4) (n : Fin 8192) (k : Fin 2048) :
    val_main_v14 (F := Ideal) x0 x1 (ix3 b n k) = dist two floor (cloud x0) (cloud x1) b n k := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [at_sq0, at_sq1, at_l4, at_r4, val_main_v0_apply, val_main_v2_apply, val_main_cst_apply, val_main_cst_0_apply,
    val_main_cst_1_apply, val_main_cst_2_apply, Ideal.ofBits_def, zero_word_add]
  rfl

/-- Its row minima. -/
theorem fwd_min (b : Fin 4) (n : Fin 8192) :
    val_main_v15 (F := Ideal) x0 x1 (ix2 b n) = ⨅ k : Fin 2048, dist two floor (cloud x0) (cloud x1) b n k := by
  unfold val_main_v15
  rw [hostMin3_ax2 _ _ reducesTo_S4x8192x2048_S4x8192_d2 (by decide) h_S_ b n]
  show (Finset.univ : Finset (Fin 2048)).fold min (Ideal.ofBits .f32 0x7F800000#32) _ = _
  rw [inf_word, fold_min_univ]
  exact iInf_congr fun k => fwd_dist x0 x1 b n k

/-- Their total. -/
theorem fwd_total (i : S_.Idx) : val_main_v16 (F := Ideal) x0 x1 i = directed two floor (cloud x0) (cloud x1) := by
  rw [val_main_v16_apply, sum_idx2]
  show Ideal.ofBits .f32 0x00000000#32 + _ = _
  rw [zero_word_add]
  unfold directed
  exact Finset.sum_congr rfl fun b _ => Finset.sum_congr rfl fun n _ => fwd_min x0 x1 b n

/-! ## The second direction -/

/-- The second distance matrix: the clouds exchanged. -/
theorem bwd_dist (b : Fin 4) (k : Fin 2048) (n : Fin 8192) :
    val_main_v31 (F := Ideal) x0 x1 (ix3 b k n) = dist two floor (cloud x1) (cloud x0) b k n := by
  rw [val_main_v31_apply, val_main_v29_apply, val_main_v26_apply, val_main_v24_apply, val_main_v22_apply, val_main_v18_apply,
    val_main_v25_apply, val_main_v23_apply, val_main_v20_apply, val_main_v28_apply, val_main_v27_apply, val_main_v21_apply,
    val_main_v30_apply]
  simp only [at_sq1', at_sq0', at_l21, at_r21, val_main_v17_apply, val_main_v19_apply, val_main_cst_5_apply, val_main_cst_6_apply,
    val_main_cst_7_apply, val_main_cst_8_apply, Ideal.ofBits_def, zero_word_add]
  rfl

theorem bwd_min (b : Fin 4) (k : Fin 2048) :
    val_main_v32 (F := Ideal) x0 x1 (ix2 b k) = ⨅ n : Fin 8192, dist two floor (cloud x1) (cloud x0) b k n := by
  unfold val_main_v32
  rw [hostMin3_ax2 _ _ reducesTo_S4x2048x8192_S4x2048_d2 (by decide) h_S_ b k]
  show (Finset.univ : Finset (Fin 8192)).fold min (Ideal.ofBits .f32 0x7F800000#32) _ = _
  rw [inf_word, fold_min_univ]
  exact iInf_congr fun n => bwd_dist x0 x1 b k n

theorem bwd_total (i : S_.Idx) : val_main_v33 (F := Ideal) x0 x1 i = directed two floor (cloud x1) (cloud x0) := by
  rw [val_main_v33_apply, sum_idx2]
  show Ideal.ofBits .f32 0x00000000#32 + _ = _
  rw [zero_word_add]
  unfold directed
  exact Finset.sum_congr rfl fun b _ => Finset.sum_congr rfl fun k _ => bwd_min x0 x1 b k

/-! ## The result -/

theorem result_value (i : S_.Idx) : val_main_v35 (F := Ideal) x0 x1 i = chamfer two floor scale (cloud x0) (cloud x1) := by
  rw [val_main_v35_apply, val_main_v34_apply, fwd_total, bwd_total]
  rfl

end Cert.ReferenceIdeal.RefValue

end
-- ==== Proof.lean ====
/-
  The bidirectional nearest-neighbour distance sum of two point clouds, tiled over the first cloud, against the whole-array
  reference.

  The kernel walks the first cloud in 64 tiles of 128 points with the second cloud (2048 points) resident. Per tile it forms
  the block of floored squared distances `max (|p|² + |q|² - 2⟨p, q⟩) 0` once and reduces it twice: along the second cloud,
  then over the tile and the batches, into a running sum (the first direction); and along the tile into a running
  minimum per point of the second cloud (the second direction), which the last tile sums and adds to the running sum. The
  host multiplies by the word nearest `1e-4`. The reference computes each direction from its own full distance matrix,
  the second with the clouds exchanged.

  On the extended reals both are `(directed P Q + directed Q P) · s` (Proof/Spec.lean): the distance is symmetric in
  its clouds because sums and products commute, a sum over all points is the sum over tiles of the sums within a tile, and
  a minimum over all points is the minimum over tiles of the minima within a tile, all along `(t, r) ↦ t · 128 + r`. No
  finiteness of the inputs is used. The kernel's side reads the generated frame run's point-by-point contents
  (Proof/KernelFound, KernelChain, KernelResult), evaluates them at coordinates (Proof/KernelPayload, KernelTiles,
  KernelClaim); the reference's side reads its generated run one operation at a time (Proof/RefValue). The ideal pass
  rewrote nothing, so `preserves` is trivial; the three frames are the generated ones.
-/
import proofs.«177309_j19061064860389_1_alg».proof.Defs
import proofs.«177309_j19061064860389_1_alg».proof.Proof.Gen.Kernel
import proofs.«177309_j19061064860389_1_alg».proof.Proof.Gen.Kernel.Frame
import proofs.«177309_j19061064860389_1_alg».proof.Proof.Gen.KernelIdeal
import proofs.«177309_j19061064860389_1_alg».proof.Proof.Gen.KernelIdeal.Frame
import proofs.«177309_j19061064860389_1_alg».proof.Proof.Gen.ReferenceIdeal
import proofs.«177309_j19061064860389_1_alg».proof.Proof.Gen.ReferenceIdeal.Run
import proofs.«177309_j19061064860389_1_alg».proof.Proof.Gen.Pre_finite_inputs
import proofs.«177309_j19061064860389_1_alg».proof.Proof.KernelClaim
import proofs.«177309_j19061064860389_1_alg».proof.Proof.RefValue
import Idealize.ShloMosaic.Adequacy
import Idealize.ShloMosaic.Init

noncomputable section

namespace Cert.Proof

open Idealize.ShloMosaic Idealize.SL.Sem Cert.Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the scaled sum of the two directed distance sums of the clouds they are given. -/
theorem algebraic : Cert.algebraic_KernelIdeal_ReferenceIdeal := by
  intro m ρ m' ρ' _ hagree
  refine ⟨fun c => fun _ => chamfer two floor scale (Cert.KernelIdeal.Tiles.X m c) (Cert.KernelIdeal.Tiles.Y m c), ?_, ?_⟩
  · exact (θ_run Cert.KernelIdeal.defs _ _).mono
      (fun _ h c => ⟨(h c).1.trans (Cert.KernelIdeal.Tiles.scaled_value m c), (h c).2⟩)
      (Cert.KernelIdeal.Result.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v35_eq, (hagree c).1, (hagree c).2]
    funext i
    exact Cert.ReferenceIdeal.RefValue.result_value _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
